-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x32 : Shape := ⟨3, ![8, 128, 32]⟩
abbrev S_ : Shape := ⟨0, ![]⟩

class Facts : Prop where
  bcast_S_S8x128x32 : S_.BroadcastsInDim S8x128x32 (![] : Fin 0 → Fin S8x128x32.rank)
  reducesTo_S8x128x32_S_d0_1_2 : S8x128x32.ReducesTo [0, 1, 2] S_
  h_S_ : 0 < S_.numel

variable [Facts]

def fn_part1 {F : FTy → Type} [FloatOps F] (main_arg4 : FVec F S8x128x32 .f32) (main_arg5 : FVec F S8x128x32 .f32) (main_v13 : IVec S_ 1) (main_v16 : IVec S8x128x32 1) : IVec S_ 1 :=
  let main_c_5 : IVec S_ 1 := constantI S_ 1 1#1
  let main_v17 : IVec S_ 1 := (fun x v => Host.reduce IntOp.andi x v reducesTo_S8x128x32_S_d0_1_2 h_S_) main_v16 main_c_5
  let main_v18 : IVec S_ 1 := andi main_v13 main_v17
  let main_v19 : FVec F S8x128x32 .f32 := Host.absf main_arg4
  let main_cst_6 : FVec F S_ .f32 := constant S_ .f32 0x7F800000#32
  let main_v20 : FVec F S8x128x32 .f32 := broadcastInDim S8x128x32 ![] bcast_S_S8x128x32 main_cst_6
  let main_v21 : IVec S8x128x32 1 := cmpf .olt main_v19 main_v20
  let main_c_7 : IVec S_ 1 := constantI S_ 1 1#1
  let main_v22 : IVec S_ 1 := (fun x v => Host.reduce IntOp.andi x v reducesTo_S8x128x32_S_d0_1_2 h_S_) main_v21 main_c_7
  let main_v23 : IVec S_ 1 := andi main_v18 main_v22
  let main_v24 : FVec F S8x128x32 .f32 := Host.absf main_arg5
  let main_cst_8 : FVec F S_ .f32 := constant S_ .f32 0x7F800000#32
  let main_v25 : FVec F S8x128x32 .f32 := broadcastInDim S8x128x32 ![] bcast_S_S8x128x32 main_cst_8
  let main_v26 : IVec S8x128x32 1 := cmpf .olt main_v24 main_v25
  let main_c_9 : IVec S_ 1 := constantI S_ 1 1#1
  let main_v27 : IVec S_ 1 := (fun x v => Host.reduce IntOp.andi x v reducesTo_S8x128x32_S_d0_1_2 h_S_) main_v26 main_c_9
  let main_v28 : IVec S_ 1 := andi main_v23 main_v27
  main_v28

def fn {F : FTy → Type} [FloatOps F] (main_arg0 : FVec F S8x128x32 .f32) (main_arg1 : FVec F S8x128x32 .f32) (main_arg2 : FVec F S8x128x32 .f32) (main_arg3 : FVec F S8x128x32 .f32) (main_arg4 : FVec F S8x128x32 .f32) (main_arg5 : FVec F S8x128x32 .f32) : IVec S_ 1 :=
  let main_v0 : FVec F S8x128x32 .f32 := Host.absf main_arg0
  let main_cst : FVec F S_ .f32 := constant S_ .f32 0x7F800000#32
  let main_v1 : FVec F S8x128x32 .f32 := broadcastInDim S8x128x32 ![] bcast_S_S8x128x32 main_cst
  let main_v2 : IVec S8x128x32 1 := cmpf .olt main_v0 main_v1
  let main_c : IVec S_ 1 := constantI S_ 1 1#1
  let main_v3 : IVec S_ 1 := (fun x v => Host.reduce IntOp.andi x v reducesTo_S8x128x32_S_d0_1_2 h_S_) main_v2 main_c
  let main_v4 : FVec F S8x128x32 .f32 := Host.absf main_arg1
  let main_cst_0 : FVec F S_ .f32 := constant S_ .f32 0x7F800000#32
  let main_v5 : FVec F S8x128x32 .f32 := broadcastInDim S8x128x32 ![] bcast_S_S8x128x32 main_cst_0
  let main_v6 : IVec S8x128x32 1 := cmpf .olt main_v4 main_v5
  let main_c_1 : IVec S_ 1 := constantI S_ 1 1#1
  let main_v7 : IVec S_ 1 := (fun x v => Host.reduce IntOp.andi x v reducesTo_S8x128x32_S_d0_1_2 h_S_) main_v6 main_c_1
  let main_v8 : IVec S_ 1 := andi main_v3 main_v7
  let main_v9 : FVec F S8x128x32 .f32 := Host.absf main_arg2
  let main_cst_2 : FVec F S_ .f32 := constant S_ .f32 0x7F800000#32
  let main_v10 : FVec F S8x128x32 .f32 := broadcastInDim S8x128x32 ![] bcast_S_S8x128x32 main_cst_2
  let main_v11 : IVec S8x128x32 1 := cmpf .olt main_v9 main_v10
  let main_c_3 : IVec S_ 1 := constantI S_ 1 1#1
  let main_v12 : IVec S_ 1 := (fun x v => Host.reduce IntOp.andi x v reducesTo_S8x128x32_S_d0_1_2 h_S_) main_v11 main_c_3
  let main_v13 : IVec S_ 1 := andi main_v8 main_v12
  let main_v14 : FVec F S8x128x32 .f32 := Host.absf main_arg3
  let main_cst_4 : FVec F S_ .f32 := constant S_ .f32 0x7F800000#32
  let main_v15 : FVec F S8x128x32 .f32 := broadcastInDim S8x128x32 ![] bcast_S_S8x128x32 main_cst_4
  let main_v16 : IVec S8x128x32 1 := cmpf .olt main_v14 main_v15
  fn_part1 (F := F) main_arg4 main_arg5 main_v13 main_v16
-- ==== Kernel.lean ====
abbrev S8x128x32 : Shape := ⟨3, ![8, 128, 32]⟩
abbrev S8x128x32768 : Shape := ⟨3, ![8, 128, 32768]⟩
abbrev S1x32x32 : Shape := ⟨3, ![1, 32, 32]⟩
abbrev S1x32x32768 : Shape := ⟨3, ![1, 32, 32768]⟩
abbrev S1x32x32x1 : Shape := ⟨4, ![1, 32, 32, 1]⟩
abbrev S1x32x1x32 : Shape := ⟨4, ![1, 32, 1, 32]⟩
abbrev S1x32x32x32 : Shape := ⟨4, ![1, 32, 32, 32]⟩
abbrev S1x32x1024 : Shape := ⟨3, ![1, 32, 1024]⟩
abbrev S1x32x1024x1 : Shape := ⟨4, ![1, 32, 1024, 1]⟩
abbrev S1x32x1024x32 : Shape := ⟨4, ![1, 32, 1024, 32]⟩

abbrev nBuf : Space → Nat
  | .hbm => 8
  | .vmem => 16
  | .smem => 0
  | _ => 0

abbrev bufTy : (tb : Table) → Fin (tcTables nBuf tb) → BufTy
  | .hbm, ⟨0, _⟩ => ⟨S8x128x32, .f32⟩
  | .hbm, ⟨1, _⟩ => ⟨S8x128x32, .f32⟩
  | .hbm, ⟨2, _⟩ => ⟨S8x128x32, .f32⟩
  | .hbm, ⟨3, _⟩ => ⟨S8x128x32, .f32⟩
  | .hbm, ⟨4, _⟩ => ⟨S8x128x32, .f32⟩
  | .hbm, ⟨5, _⟩ => ⟨S8x128x32, .f32⟩
  | .hbm, ⟨6, _⟩ => ⟨S8x128x32768, .f32⟩
  | .hbm, ⟨7, _⟩ => ⟨S8x128x32768, .f32⟩
  | .local _ .vmem, ⟨0, _⟩ => ⟨S1x32x32, .f32⟩
  | .local _ .vmem, ⟨1, _⟩ => ⟨S1x32x32, .f32⟩
  | .local _ .vmem, ⟨2, _⟩ => ⟨S1x32x32, .f32⟩
  | .local _ .vmem, ⟨3, _⟩ => ⟨S1x32x32, .f32⟩
  | .local _ .vmem, ⟨4, _⟩ => ⟨S1x32x32, .f32⟩
  | .local _ .vmem, ⟨5, _⟩ => ⟨S1x32x32, .f32⟩
  | .local _ .vmem, ⟨6, _⟩ => ⟨S1x32x32, .f32⟩
  | .local _ .vmem, ⟨7, _⟩ => ⟨S1x32x32, .f32⟩
  | .local _ .vmem, ⟨8, _⟩ => ⟨S1x32x32, .f32⟩
  | .local _ .vmem, ⟨9, _⟩ => ⟨S1x32x32, .f32⟩
  | .local _ .vmem, ⟨10, _⟩ => ⟨S1x32x32, .f32⟩
  | .local _ .vmem, ⟨11, _⟩ => ⟨S1x32x32, .f32⟩
  | .local _ .vmem, ⟨12, _⟩ => ⟨S1x32x32768, .f32⟩
  | .local _ .vmem, ⟨13, _⟩ => ⟨S1x32x32768, .f32⟩
  | .local _ .vmem, ⟨14, _⟩ => ⟨S1x32x32768, .f32⟩
  | .local _ .vmem, ⟨15, _⟩ => ⟨S1x32x32768, .f32⟩
  | _, _ => ⟨S8x128x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x32768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x32768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  inb_S1x32x32_S1x32x32_0_0_0 : ∀ a, (![0, 0, 0] : Fin 3 → Nat) a + S1x32x32.size a ≤ S1x32x32.size a
  h_S1x32x32 : 0 < S1x32x32.numel
  shapeCasts_S1x32x32_S1x32x32x1 : S1x32x32.ShapeCasts S1x32x32x1
  shapeCasts_S1x32x32_S1x32x1x32 : S1x32x32.ShapeCasts S1x32x1x32
  broadcasts_S1x32x32x1_S1x32x32x32 : S1x32x32x1.Broadcasts S1x32x32x32
  broadcasts_S1x32x1x32_S1x32x32x32 : S1x32x1x32.Broadcasts S1x32x32x32
  shapeCasts_S1x32x32x32_S1x32x1024 : S1x32x32x32.ShapeCasts S1x32x1024
  shapeCasts_S1x32x1024_S1x32x1024x1 : S1x32x1024.ShapeCasts S1x32x1024x1
  broadcasts_S1x32x1024x1_S1x32x1024x32 : S1x32x1024x1.Broadcasts S1x32x1024x32
  broadcasts_S1x32x1x32_S1x32x1024x32 : S1x32x1x32.Broadcasts S1x32x1024x32
  shapeCasts_S1x32x1024x32_S1x32x32768 : S1x32x1024x32.ShapeCasts S1x32x32768
  inb_S1x32x32768_S1x32x32768_0_0_0 : ∀ a, (![0, 0, 0] : Fin 3 → Nat) a + S1x32x32768.size a ≤ S1x32x32768.size a
  h_S1x32x32768 : 0 < S1x32x32768.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x32.size a ≤ S8x128x32.size a
  hwx0_0 : ∀ i : grid0.Coords, EltTy.bits .f32 = 32 ∨ (Rect.block (s := S8x128x32) S1x32x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x32.size a ≤ S8x128x32.size a
  hwx0_1 : ∀ i : grid0.Coords, EltTy.bits .f32 = 32 ∨ (Rect.block (s := S8x128x32) S1x32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x32.size a ≤ S8x128x32.size a
  hwx0_2 : ∀ i : grid0.Coords, EltTy.bits .f32 = 32 ∨ (Rect.block (s := S8x128x32) S1x32x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x32.size a ≤ S8x128x32.size a
  hwx0_3 : ∀ i : grid0.Coords, EltTy.bits .f32 = 32 ∨ (Rect.block (s := S8x128x32) S1x32x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x32.size a ≤ S8x128x32.size a
  hwx0_4 : ∀ i : grid0.Coords, EltTy.bits .f32 = 32 ∨ (Rect.block (s := S8x128x32) S1x32x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x32.size a ≤ S8x128x32.size a
  hwx0_5 : ∀ i : grid0.Coords, EltTy.bits .f32 = 32 ∨ (Rect.block (s := S8x128x32) S1x32x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x32x32768.size a ≤ S8x128x32768.size a
  hwx0_6 : ∀ i : grid0.Coords, EltTy.bits .f32 = 32 ∨ (Rect.block (s := S8x128x32768) S1x32x32768.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x32x32768.size a ≤ S8x128x32768.size a
  hwx0_7 : ∀ i : grid0.Coords, EltTy.bits .f32 = 32 ∨ (Rect.block (s := S8x128x32768) S1x32x32768.size (cc0_transform_7 i) (hinb0_7 i)).WholeWords (EltTy.packing .f32)

variable [Facts₀]

abbrev win0_0 : Pipeline.Window sig grid0 :=
  Pipeline.Window.ofSpec (Memref.whole main_arg0) S1x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x32x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x32x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x32x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x32x32.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S1x32x32768.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S1x32x32768.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x128x32 : Shape := ⟨3, ![8, 128, 32]⟩
abbrev S_ : Shape := ⟨0, ![]⟩
abbrev S8x128x1 : Shape := ⟨3, ![8, 128, 1]⟩
abbrev S8x128x1x1 : Shape := ⟨4, ![8, 128, 1, 1]⟩
abbrev S8x128x1x32 : Shape := ⟨4, ![8, 128, 1, 32]⟩
abbrev S8x128x32x1 : Shape := ⟨4, ![8, 128, 32, 1]⟩
abbrev S8x128x32x32 : Shape := ⟨4, ![8, 128, 32, 32]⟩
abbrev S8x128x1024 : Shape := ⟨3, ![8, 128, 1024]⟩
abbrev S8x128x1024x1 : Shape := ⟨4, ![8, 128, 1024, 1]⟩
abbrev S8x128x1024x32 : Shape := ⟨4, ![8, 128, 1024, 32]⟩
abbrev S8x128x32768 : Shape := ⟨3, ![8, 128, 32768]⟩

abbrev nBuf : Space → Nat
  | .hbm => 80
  | .vmem => 0
  | .smem => 0
  | _ => 0

abbrev bufTy : (tb : Table) → Fin (tcTables nBuf tb) → BufTy
  | .hbm, ⟨0, _⟩ => ⟨S8x128x32, .f32⟩
  | .hbm, ⟨1, _⟩ => ⟨S8x128x32, .f32⟩
  | .hbm, ⟨2, _⟩ => ⟨S8x128x32, .f32⟩
  | .hbm, ⟨3, _⟩ => ⟨S8x128x32, .f32⟩
  | .hbm, ⟨4, _⟩ => ⟨S8x128x32, .f32⟩
  | .hbm, ⟨5, _⟩ => ⟨S8x128x32, .f32⟩
  | .hbm, ⟨6, _⟩ => ⟨S_, .f32⟩
  | .hbm, ⟨7, _⟩ => ⟨S8x128x1, .f32⟩
  | .hbm, ⟨8, _⟩ => ⟨S_, .f32⟩
  | .hbm, ⟨9, _⟩ => ⟨S8x128x1, .f32⟩
  | .hbm, ⟨10, _⟩ => ⟨S_, .f32⟩
  | .hbm, ⟨11, _⟩ => ⟨S8x128x1, .f32⟩
  | .hbm, ⟨12, _⟩ => ⟨S8x128x1x1, .f32⟩
  | .hbm, ⟨13, _⟩ => ⟨S8x128x1x32, .f32⟩
  | .hbm, ⟨14, _⟩ => ⟨S8x128x1x32, .f32⟩
  | .hbm, ⟨15, _⟩ => ⟨S8x128x1x32, .f32⟩
  | .hbm, ⟨16, _⟩ => ⟨S8x128x1x1, .f32⟩
  | .hbm, ⟨17, _⟩ => ⟨S8x128x1x32, .f32⟩
  | .hbm, ⟨18, _⟩ => ⟨S8x128x1x32, .f32⟩
  | .hbm, ⟨19, _⟩ => ⟨S8x128x1x32, .f32⟩
  | .hbm, ⟨20, _⟩ => ⟨S8x128x1x32, .f32⟩
  | .hbm, ⟨21, _⟩ => ⟨S8x128x1x1, .f32⟩
  | .hbm, ⟨22, _⟩ => ⟨S8x128x1x32, .f32⟩
  | .hbm, ⟨23, _⟩ => ⟨S8x128x1x32, .f32⟩
  | .hbm, ⟨24, _⟩ => ⟨S8x128x1x32, .f32⟩
  | .hbm, ⟨25, _⟩ => ⟨S8x128x1x1, .f32⟩
  | .hbm, ⟨26, _⟩ => ⟨S8x128x1x32, .f32⟩
  | .hbm, ⟨27, _⟩ => ⟨S8x128x1x32, .f32⟩
  | .hbm, ⟨28, _⟩ => ⟨S8x128x1x32, .f32⟩
  | .hbm, ⟨29, _⟩ => ⟨S8x128x1x32, .f32⟩
  | .hbm, ⟨30, _⟩ => ⟨S8x128x32, .f32⟩
  | .hbm, ⟨31, _⟩ => ⟨S8x128x32, .f32⟩
  | .hbm, ⟨32, _⟩ => ⟨S8x128x32x1, .f32⟩
  | .hbm, ⟨33, _⟩ => ⟨S8x128x1x32, .f32⟩
  | .hbm, ⟨34, _⟩ => ⟨S8x128x32x32, .f32⟩
  | .hbm, ⟨35, _⟩ => ⟨S8x128x32x32, .f32⟩
  | .hbm, ⟨36, _⟩ => ⟨S8x128x32x32, .f32⟩
  | .hbm, ⟨37, _⟩ => ⟨S8x128x32x1, .f32⟩
  | .hbm, ⟨38, _⟩ => ⟨S8x128x1x32, .f32⟩
  | .hbm, ⟨39, _⟩ => ⟨S8x128x32x32, .f32⟩
  | .hbm, ⟨40, _⟩ => ⟨S8x128x32x32, .f32⟩
  | .hbm, ⟨41, _⟩ => ⟨S8x128x32x32, .f32⟩
  | .hbm, ⟨42, _⟩ => ⟨S8x128x32x32, .f32⟩
  | .hbm, ⟨43, _⟩ => ⟨S8x128x32x1, .f32⟩
  | .hbm, ⟨44, _⟩ => ⟨S8x128x1x32, .f32⟩
  | .hbm, ⟨45, _⟩ => ⟨S8x128x32x32, .f32⟩
  | .hbm, ⟨46, _⟩ => ⟨S8x128x32x32, .f32⟩
  | .hbm, ⟨47, _⟩ => ⟨S8x128x32x32, .f32⟩
  | .hbm, ⟨48, _⟩ => ⟨S8x128x32x1, .f32⟩
  | .hbm, ⟨49, _⟩ => ⟨S8x128x1x32, .f32⟩
  | .hbm, ⟨50, _⟩ => ⟨S8x128x32x32, .f32⟩
  | .hbm, ⟨51, _⟩ => ⟨S8x128x32x32, .f32⟩
  | .hbm, ⟨52, _⟩ => ⟨S8x128x32x32, .f32⟩
  | .hbm, ⟨53, _⟩ => ⟨S8x128x32x32, .f32⟩
  | .hbm, ⟨54, _⟩ => ⟨S8x128x1024, .f32⟩
  | .hbm, ⟨55, _⟩ => ⟨S8x128x1024, .f32⟩
  | .hbm, ⟨56, _⟩ => ⟨S8x128x1024x1, .f32⟩
  | .hbm, ⟨57, _⟩ => ⟨S8x128x1x32, .f32⟩
  | .hbm, ⟨58, _⟩ => ⟨S8x128x1024x32, .f32⟩
  | .hbm, ⟨59, _⟩ => ⟨S8x128x1024x32, .f32⟩
  | .hbm, ⟨60, _⟩ => ⟨S8x128x1024x32, .f32⟩
  | .hbm, ⟨61, _⟩ => ⟨S8x128x1024x1, .f32⟩
  | .hbm, ⟨62, _⟩ => ⟨S8x128x1x32, .f32⟩
  | .hbm, ⟨63, _⟩ => ⟨S8x128x1024x32, .f32⟩
  | .hbm, ⟨64, _⟩ => ⟨S8x128x1024x32, .f32⟩
  | .hbm, ⟨65, _⟩ => ⟨S8x128x1024x32, .f32⟩
  | .hbm, ⟨66, _⟩ => ⟨S8x128x1024x32, .f32⟩
  | .hbm, ⟨67, _⟩ => ⟨S8x128x1024x1, .f32⟩
  | .hbm, ⟨68, _⟩ => ⟨S8x128x1x32, .f32⟩
  | .hbm, ⟨69, _⟩ => ⟨S8x128x1024x32, .f32⟩
  | .hbm, ⟨70, _⟩ => ⟨S8x128x1024x32, .f32⟩
  | .hbm, ⟨71, _⟩ => ⟨S8x128x1024x32, .f32⟩
  | .hbm, ⟨72, _⟩ => ⟨S8x128x1024x1, .f32⟩
  | .hbm, ⟨73, _⟩ => ⟨S8x128x1x32, .f32⟩
  | .hbm, ⟨74, _⟩ => ⟨S8x128x1024x32, .f32⟩
  | .hbm, ⟨75, _⟩ => ⟨S8x128x1024x32, .f32⟩
  | .hbm, ⟨76, _⟩ => ⟨S8x128x1024x32, .f32⟩
  | .hbm, ⟨77, _⟩ => ⟨S8x128x1024x32, .f32⟩
  | .hbm, ⟨78, _⟩ => ⟨S8x128x32768, .f32⟩
  | .hbm, ⟨79, _⟩ => ⟨S8x128x32768, .f32⟩
  | _, _ => ⟨S8x128x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩

abbrev nD : Nat := 1
abbrev τ : Topo := Topo.v7x

variable {F : FTy → Type} [FloatOps F]

class Facts₀ : Prop where
  bcast_S_S8x128x1 : S_.BroadcastsInDim S8x128x1 (![] : Fin 0 → Fin S8x128x1.rank)
  bcast_S8x128x1_S8x128x1x1_0_1_2 : S8x128x1.BroadcastsInDim S8x128x1x1 (![0, 1, 2] : Fin 3 → Fin S8x128x1x1.rank)
  bcast_S8x128x32_S8x128x1x32_0_1_3 : S8x128x32.BroadcastsInDim S8x128x1x32 (![0, 1, 3] : Fin 3 → Fin S8x128x1x32.rank)
  bcast_S8x128x1x1_S8x128x1x32_0_1_2_3 : S8x128x1x1.BroadcastsInDim S8x128x1x32 (![0, 1, 2, 3] : Fin 4 → Fin S8x128x1x32.rank)
  shapeCasts_S8x128x1x32_S8x128x32 : S8x128x1x32.ShapeCasts S8x128x32
  bcast_S8x128x32_S8x128x32x1_0_1_2 : S8x128x32.BroadcastsInDim S8x128x32x1 (![0, 1, 2] : Fin 3 → Fin S8x128x32x1.rank)
  bcast_S8x128x32x1_S8x128x32x32_0_1_2_3 : S8x128x32x1.BroadcastsInDim S8x128x32x32 (![0, 1, 2, 3] : Fin 4 → Fin S8x128x32x32.rank)
  bcast_S8x128x1x32_S8x128x32x32_0_1_2_3 : S8x128x1x32.BroadcastsInDim S8x128x32x32 (![0, 1, 2, 3] : Fin 4 → Fin S8x128x32x32.rank)
  shapeCasts_S8x128x32x32_S8x128x1024 : S8x128x32x32.ShapeCasts S8x128x1024
  bcast_S8x128x1024_S8x128x1024x1_0_1_2 : S8x128x1024.BroadcastsInDim S8x128x1024x1 (![0, 1, 2] : Fin 3 → Fin S8x128x1024x1.rank)
  bcast_S8x128x1024x1_S8x128x1024x32_0_1_2_3 : S8x128x1024x1.BroadcastsInDim S8x128x1024x32 (![0, 1, 2, 3] : Fin 4 → Fin S8x128x1024x32.rank)
  bcast_S8x128x1x32_S8x128x1024x32_0_1_2_3 : S8x128x1x32.BroadcastsInDim S8x128x1024x32 (![0, 1, 2, 3] : Fin 4 → Fin S8x128x1024x32.rank)
  shapeCasts_S8x128x1024x32_S8x128x32768 : S8x128x1024x32.ShapeCasts S8x128x32768

variable [Facts₀]

class Facts : Prop extends Facts₀ where

variable [Facts]
-- ==== Proof.QSpec.lean ====
/-
  The value both programs compute, as one function of the six argument arrays.

  The arguments are the real and imaginary parts of three complex tensors z₀, z₁, z₂ of shape [8, 128, 32]
  (batch, position, component). For each batch b and position s the result is the Kronecker product of
  the three component vectors, scaled by the complex unit sum 1 + i:

      w(b, s, d) = (1 + i) · z₀(b, s, p) · z₁(b, s, q) · z₂(b, s, k),    d = 1024·p + 32·q + k,

  so p, q, k are the three base-32 digits of the flattened component index d < 32³ = 32768. The product is
  taken left to right, one complex multiplication at a time, each written out on real and imaginary parts:
  (x + iy)(u + iv) = (xu − yv) + i(xv + yu). Nothing is rearranged, so no law of the extended reals beyond
  those two formulas is needed here, and the definitions make sense whether or not the entries are finite.
-/
import Idealize.ShloMosaic.PureOps.Ideal
import Idealize.ShloMosaic.Lib.ValueIdx

noncomputable section

namespace Cert.QProduct

open Idealize.ShloMosaic Idealize.ShloMosaic.ValueIdx

/-- One argument array: the real or the imaginary part of a factor, indexed [batch, position, component]. -/
abbrev Arr : Type := (⟨3, ![8, 128, 32]⟩ : Shape).Idx → EReal

/-- One result array: indexed [batch, position, flattened triple of components]. -/
abbrev Out : Type := (⟨3, ![8, 128, 32768]⟩ : Shape).Idx → EReal

/-! ## The three base-32 digits of a flattened component index -/

/-- The leading digit p of d = 1024·p + 32·q + k. -/
def hi (d : Fin 32768) : Fin 32 := ⟨d.val / 1024, by have := d.isLt; omega⟩
/-- The middle digit q. -/
def mid (d : Fin 32768) : Fin 32 := ⟨d.val / 32 % 32, by have := d.isLt; omega⟩
/-- The last digit k. -/
def lo (d : Fin 32768) : Fin 32 := ⟨d.val % 32, by have := d.isLt; omega⟩

variable (a0 a1 a2 a3 a4 a5 : Arr)

/-! ## The product, one factor at a time -/

/-- Real part of (1 + i)·z₀: Re z₀ − Im z₀. -/
def firstRe (b : Fin 8) (s : Fin 128) (p : Fin 32) : EReal := a0 (ix3 b s p) - a1 (ix3 b s p)
/-- Imaginary part of (1 + i)·z₀: Re z₀ + Im z₀. -/
def firstIm (b : Fin 8) (s : Fin 128) (p : Fin 32) : EReal := a0 (ix3 b s p) + a1 (ix3 b s p)

/-- Real part of (1 + i)·z₀(p)·z₁(q). -/
def pairRe (b : Fin 8) (s : Fin 128) (p q : Fin 32) : EReal :=
  firstRe a0 a1 b s p * a2 (ix3 b s q) - firstIm a0 a1 b s p * a3 (ix3 b s q)
/-- Imaginary part of (1 + i)·z₀(p)·z₁(q). -/
def pairIm (b : Fin 8) (s : Fin 128) (p q : Fin 32) : EReal :=
  firstRe a0 a1 b s p * a3 (ix3 b s q) + firstIm a0 a1 b s p * a2 (ix3 b s q)

/-- Real part of (1 + i)·z₀(p)·z₁(q)·z₂(k). -/
def tripleRe (b : Fin 8) (s : Fin 128) (p q k : Fin 32) : EReal :=
  pairRe a0 a1 a2 a3 b s p q * a4 (ix3 b s k) - pairIm a0 a1 a2 a3 b s p q * a5 (ix3 b s k)
/-- Imaginary part of (1 + i)·z₀(p)·z₁(q)·z₂(k). -/
def tripleIm (b : Fin 8) (s : Fin 128) (p q k : Fin 32) : EReal :=
  pairRe a0 a1 a2 a3 b s p q * a5 (ix3 b s k) + pairIm a0 a1 a2 a3 b s p q * a4 (ix3 b s k)

/-! ## The two result arrays -/

/-- The real parts of the Kronecker product, entry (b, s, d) read at the digits of d. -/
def outRe : Out := fun i => tripleRe a0 a1 a2 a3 a4 a5 (i 0) (i 1) (hi (i 2)) (mid (i 2)) (lo (i 2))
/-- The imaginary parts of the Kronecker product. -/
def outIm : Out := fun i => tripleIm a0 a1 a2 a3 a4 a5 (i 0) (i 1) (hi (i 2)) (mid (i 2)) (lo (i 2))

/-! ## The one constant -/

/-- The single-precision word 0x3F800000 is the number one. -/
theorem one_word : Ideal.ofBits .f32 0x3F800000#32 = (1 : EReal) := by
  simp [Ideal.ofBits, Ideal.ieee, -EReal.coe_mul]; norm_num

end Cert.QProduct

end
-- ==== Proof.QKernelBlock.lean ====
/-
  The kernel's two results as whole arrays.

  The kernel walks a grid of 8 × 4 points. At point (b, g) it loads rows 32·g … 32·g + 31 of batch b from each of the
  six argument arrays (a [1, 32, 32] block of each), computes the two [1, 32, 32768] result blocks from them and writes
  them back to rows 32·g … 32·g + 31 of batch b. Within a block, entry (0, r, d) is built from component d / 1024 of the
  first factor, d / 32 mod 32 of the second and d mod 32 of the third, all at row r: the three base-32 digits of d.
  Since every row of every batch lies in exactly one block, the result arrays are the Kronecker product entry by entry.
-/
import proofs.«148711_j54838142435818_1_alg».proof.Proof.Gen.KernelIdeal.Value
import proofs.«148711_j54838142435818_1_alg».proof.Proof.QSpec

set_option maxRecDepth 16384

noncomputable section

namespace Cert.QProduct.Ker

open Cert.KernelIdeal Cert.KernelIdeal.Gen Cert.KernelIdeal.Value Idealize.ShloMosaic Idealize.ShloMosaic.TcCoe
open Idealize.SL.Sem Idealize.ShloMosaic.ValueIdx Cert.QProduct
open Idealize.ShloMosaic.Pipeline (Dat)

/-! ## One block, over any six loaded blocks -/

/-- The loads and stores of the body start at the corner of their buffers. -/
theorem corner : (![0, 0, 0] : Fin 3 → Nat) = fun _ => 0 := funext fun a => by fin_cases a <;> rfl

/-- Row r of the g-th group of 32 rows. -/
def row (g : Fin 4) (r : Fin 32) : Fin 128 := ⟨g.val * 32 + r.val, by have := g.isLt; have := r.isLt; omega⟩

/-- If the six loaded blocks are rows 32·g … of batch b of six arrays, the real-part block the body leaves is the same
    rows of the real parts of their Kronecker product: entry (0, r, d) reads the factors at the digits of d. -/
theorem block_re (a0 a1 a2 a3 a4 a5 : Arr) (b : Fin 8) (g : Fin 4)
    (P0 P1 P2 P3 P4 P5 : Vec Ideal S1x32x32 .f32)
    (h0 : ∀ u : S1x32x32.Idx, P0 u = a0 (ix3 b (row g (u 1)) (u 2)))
    (h1 : ∀ u : S1x32x32.Idx, P1 u = a1 (ix3 b (row g (u 1)) (u 2)))
    (h2 : ∀ u : S1x32x32.Idx, P2 u = a2 (ix3 b (row g (u 1)) (u 2)))
    (h3 : ∀ u : S1x32x32.Idx, P3 u = a3 (ix3 b (row g (u 1)) (u 2)))
    (h4 : ∀ u : S1x32x32.Idx, P4 u = a4 (ix3 b (row g (u 1)) (u 2)))
    (h5 : ∀ u : S1x32x32.Idx, P5 u = a5 (ix3 b (row g (u 1)) (u 2)))
    (y : S1x32x32768.Idx) :
    E6 P0 P1 P2 P3 P4 P5 y = outRe a0 a1 a2 a3 a4 a5 (ix3 b (row g (y 1)) (y 2)) := by
  obtain rfl : P0 = fun u => a0 (ix3 b (row g (u 1)) (u 2)) := funext h0
  obtain rfl : P1 = fun u => a1 (ix3 b (row g (u 1)) (u 2)) := funext h1
  obtain rfl : P2 = fun u => a2 (ix3 b (row g (u 1)) (u 2)) := funext h2
  obtain rfl : P3 = fun u => a3 (ix3 b (row g (u 1)) (u 2)) := funext h3
  obtain rfl : P4 = fun u => a4 (ix3 b (row g (u 1)) (u 2)) := funext h4
  obtain rfl : P5 = fun u => a5 (ix3 b (row g (u 1)) (u 2)) := funext h5
  rfl

/-- The same for the imaginary-part block. -/
theorem block_im (a0 a1 a2 a3 a4 a5 : Arr) (b : Fin 8) (g : Fin 4)
    (P0 P1 P2 P3 P4 P5 : Vec Ideal S1x32x32 .f32)
    (h0 : ∀ u : S1x32x32.Idx, P0 u = a0 (ix3 b (row g (u 1)) (u 2)))
    (h1 : ∀ u : S1x32x32.Idx, P1 u = a1 (ix3 b (row g (u 1)) (u 2)))
    (h2 : ∀ u : S1x32x32.Idx, P2 u = a2 (ix3 b (row g (u 1)) (u 2)))
    (h3 : ∀ u : S1x32x32.Idx, P3 u = a3 (ix3 b (row g (u 1)) (u 2)))
    (h4 : ∀ u : S1x32x32.Idx, P4 u = a4 (ix3 b (row g (u 1)) (u 2)))
    (h5 : ∀ u : S1x32x32.Idx, P5 u = a5 (ix3 b (row g (u 1)) (u 2)))
    (y : S1x32x32768.Idx) :
    E7 P0 P1 P2 P3 P5 P4 y = outIm a0 a1 a2 a3 a4 a5 (ix3 b (row g (y 1)) (y 2)) := by
  obtain rfl : P0 = fun u => a0 (ix3 b (row g (u 1)) (u 2)) := funext h0
  obtain rfl : P1 = fun u => a1 (ix3 b (row g (u 1)) (u 2)) := funext h1
  obtain rfl : P2 = fun u => a2 (ix3 b (row g (u 1)) (u 2)) := funext h2
  obtain rfl : P3 = fun u => a3 (ix3 b (row g (u 1)) (u 2)) := funext h3
  obtain rfl : P4 = fun u => a4 (ix3 b (row g (u 1)) (u 2)) := funext h4
  obtain rfl : P5 = fun u => a5 (ix3 b (row g (u 1)) (u 2)) := funext h5
  rfl

end Cert.QProduct.Ker

end
-- ==== Proof.QKernelArray.lean ====
/-
  From blocks to arrays: what the kernel's run leaves in its two result arrays.

  Grid point t = (b, g) fetches rows 32·g … 32·g + 31 of batch b of every argument and writes the same rows of both
  results. The index maps are tabulated over the 32 points once; from the table, each fetched block is the stated rows
  of its array, each written block is the stated rows of the Kronecker product, and every entry of a result array lies
  in the block of the point (b, s / 32). Hence each result array, after the run, is the product entry by entry.
-/
import proofs.«148711_j54838142435818_1_alg».proof.Proof.QKernelBlock

set_option maxRecDepth 16384

noncomputable section

namespace Cert.QProduct.Ker

open Cert.KernelIdeal Cert.KernelIdeal.Gen Cert.KernelIdeal.Value Idealize.ShloMosaic Idealize.ShloMosaic.TcCoe
open Idealize.SL.Sem Idealize.ShloMosaic.ValueIdx Cert.QProduct
open Idealize.ShloMosaic.Pipeline (Dat)

variable (m : (ℓ : Loc nD τ sig) → Buf (Elt Ideal) ℓ) (ρ : Dev nD → PrngReg)

/-! ## What the body leaves, at an index -/

/-- The one store into the first result's buffer covers it, so the buffer holds the stored value. -/
theorem left_re (x0 x1 x2 x3 x4 x5 : Vec Ideal S1x32x32 .f32) (y : S1x32x32768.Idx) :
    out0_6 x0 x1 x2 x3 x4 x5 y = E6 x0 x1 x2 x3 x4 x5 y := by
  unfold out0_6
  simp only [View.ld_unit_zero (S := S1x32x32) corner]
  exact canon6_eq x0 x1 x2 x3 x4 x5 y

/-- The same for the second result's buffer; its stored value names the third factor's two parts in the other order. -/
theorem left_im (x0 x1 x2 x3 x4 x5 : Vec Ideal S1x32x32 .f32) (y : S1x32x32768.Idx) :
    out0_7 x0 x1 x2 x3 x4 x5 y = E7 x0 x1 x2 x3 x5 x4 y := by
  unfold out0_7
  simp only [View.ld_unit_zero (S := S1x32x32) corner]
  exact canon7_eq x0 x1 x2 x3 x5 x4 y

/-! ## The index maps over the grid -/

/-- Both results' blocks sit at (batch, row group, 0) with batch < 8 and row group < 4. -/
theorem grid_out : ∀ t : Fin cfg0.N,
    win0_6.index t (0 : Fin 3) < 8 ∧ win0_6.index t (1 : Fin 3) < 4 ∧ win0_6.index t (2 : Fin 3) = 0
    ∧ win0_7.index t (0 : Fin 3) = win0_6.index t (0 : Fin 3) ∧ win0_7.index t (1 : Fin 3) = win0_6.index t (1 : Fin 3)
    ∧ win0_7.index t (2 : Fin 3) = 0 :=
  (by decide +kernel : ∀ t : Fin grid0.N, _)

/-- Every argument's block sits at the same (batch, row group, 0). -/
theorem grid_in : ∀ t : Fin cfg0.N,
    (win0_0.index t (0 : Fin 3) = win0_6.index t (0 : Fin 3) ∧ win0_0.index t (1 : Fin 3) = win0_6.index t (1 : Fin 3) ∧ win0_0.index t (2 : Fin 3) = 0)
    ∧ (win0_1.index t (0 : Fin 3) = win0_6.index t (0 : Fin 3) ∧ win0_1.index t (1 : Fin 3) = win0_6.index t (1 : Fin 3) ∧ win0_1.index t (2 : Fin 3) = 0)
    ∧ (win0_2.index t (0 : Fin 3) = win0_6.index t (0 : Fin 3) ∧ win0_2.index t (1 : Fin 3) = win0_6.index t (1 : Fin 3) ∧ win0_2.index t (2 : Fin 3) = 0)
    ∧ (win0_3.index t (0 : Fin 3) = win0_6.index t (0 : Fin 3) ∧ win0_3.index t (1 : Fin 3) = win0_6.index t (1 : Fin 3) ∧ win0_3.index t (2 : Fin 3) = 0)
    ∧ (win0_4.index t (0 : Fin 3) = win0_6.index t (0 : Fin 3) ∧ win0_4.index t (1 : Fin 3) = win0_6.index t (1 : Fin 3) ∧ win0_4.index t (2 : Fin 3) = 0)
    ∧ (win0_5.index t (0 : Fin 3) = win0_6.index t (0 : Fin 3) ∧ win0_5.index t (1 : Fin 3) = win0_6.index t (1 : Fin 3) ∧ win0_5.index t (2 : Fin 3) = 0) :=
  (by decide +kernel : ∀ t : Fin grid0.N, _)

/-- Every (batch, row group) is some point's. -/
theorem grid_onto : ∀ (q0 : Fin 8) (q1 : Fin 4), ∃ t : Fin cfg0.N,
    win0_6.index t = ![q0.val, q1.val, 0] ∧ win0_7.index t = ![q0.val, q1.val, 0] :=
  (by decide +kernel : ∀ (q0 : Fin 8) (q1 : Fin 4), ∃ t : Fin grid0.N,
    win0_6.index t = ![q0.val, q1.val, 0] ∧ win0_7.index t = ![q0.val, q1.val, 0])

/-- The batch of point t. -/
def batchOf (t : Fin cfg0.N) : Fin 8 := ⟨win0_6.index t (0 : Fin 3), (grid_out t).1⟩
/-- The row group of point t. -/
def groupOf (t : Fin cfg0.N) : Fin 4 := ⟨win0_6.index t (1 : Fin 3), (grid_out t).2.1⟩

/-! ## Where each block sits in its array

A block's coordinate in the array is its block index times the block's extent plus the coordinate inside the block. -/

theorem in0 (t : Fin cfg0.N) (u : S1x32x32.Idx) :
    (((cfg0.win 0).blk t).view.emb u : S8x128x32.Idx) = ix3 (batchOf t) (row (groupOf t) (u 1)) (u 2) := by
  obtain ⟨e0, e1, e2⟩ := (grid_in t).1
  have hu0 : (u 0).val < 1 := (u 0).isLt
  funext a
  match a with
  | ⟨0, _⟩ => exact Fin.ext (by show win0_0.index t (0 : Fin 3) * 1 + 1 * (u 0).val = win0_6.index t (0 : Fin 3); omega)
  | ⟨1, _⟩ => exact Fin.ext (by show win0_0.index t (1 : Fin 3) * 32 + 1 * (u 1).val = win0_6.index t (1 : Fin 3) * 32 + (u 1).val; omega)
  | ⟨2, _⟩ => exact Fin.ext (by show win0_0.index t (2 : Fin 3) * 32 + 1 * (u 2).val = (u 2).val; omega)

theorem in1 (t : Fin cfg0.N) (u : S1x32x32.Idx) :
    (((cfg0.win 1).blk t).view.emb u : S8x128x32.Idx) = ix3 (batchOf t) (row (groupOf t) (u 1)) (u 2) := by
  obtain ⟨e0, e1, e2⟩ := (grid_in t).2.1
  have hu0 : (u 0).val < 1 := (u 0).isLt
  funext a
  match a with
  | ⟨0, _⟩ => exact Fin.ext (by show win0_1.index t (0 : Fin 3) * 1 + 1 * (u 0).val = win0_6.index t (0 : Fin 3); omega)
  | ⟨1, _⟩ => exact Fin.ext (by show win0_1.index t (1 : Fin 3) * 32 + 1 * (u 1).val = win0_6.index t (1 : Fin 3) * 32 + (u 1).val; omega)
  | ⟨2, _⟩ => exact Fin.ext (by show win0_1.index t (2 : Fin 3) * 32 + 1 * (u 2).val = (u 2).val; omega)

theorem in2 (t : Fin cfg0.N) (u : S1x32x32.Idx) :
    (((cfg0.win 2).blk t).view.emb u : S8x128x32.Idx) = ix3 (batchOf t) (row (groupOf t) (u 1)) (u 2) := by
  obtain ⟨e0, e1, e2⟩ := (grid_in t).2.2.1
  have hu0 : (u 0).val < 1 := (u 0).isLt
  funext a
  match a with
  | ⟨0, _⟩ => exact Fin.ext (by show win0_2.index t (0 : Fin 3) * 1 + 1 * (u 0).val = win0_6.index t (0 : Fin 3); omega)
  | ⟨1, _⟩ => exact Fin.ext (by show win0_2.index t (1 : Fin 3) * 32 + 1 * (u 1).val = win0_6.index t (1 : Fin 3) * 32 + (u 1).val; omega)
  | ⟨2, _⟩ => exact Fin.ext (by show win0_2.index t (2 : Fin 3) * 32 + 1 * (u 2).val = (u 2).val; omega)

theorem in3 (t : Fin cfg0.N) (u : S1x32x32.Idx) :
    (((cfg0.win 3).blk t).view.emb u : S8x128x32.Idx) = ix3 (batchOf t) (row (groupOf t) (u 1)) (u 2) := by
  obtain ⟨e0, e1, e2⟩ := (grid_in t).2.2.2.1
  have hu0 : (u 0).val < 1 := (u 0).isLt
  funext a
  match a with
  | ⟨0, _⟩ => exact Fin.ext (by show win0_3.index t (0 : Fin 3) * 1 + 1 * (u 0).val = win0_6.index t (0 : Fin 3); omega)
  | ⟨1, _⟩ => exact Fin.ext (by show win0_3.index t (1 : Fin 3) * 32 + 1 * (u 1).val = win0_6.index t (1 : Fin 3) * 32 + (u 1).val; omega)
  | ⟨2, _⟩ => exact Fin.ext (by show win0_3.index t (2 : Fin 3) * 32 + 1 * (u 2).val = (u 2).val; omega)

theorem in4 (t : Fin cfg0.N) (u : S1x32x32.Idx) :
    (((cfg0.win 4).blk t).view.emb u : S8x128x32.Idx) = ix3 (batchOf t) (row (groupOf t) (u 1)) (u 2) := by
  obtain ⟨e0, e1, e2⟩ := (grid_in t).2.2.2.2.1
  have hu0 : (u 0).val < 1 := (u 0).isLt
  funext a
  match a with
  | ⟨0, _⟩ => exact Fin.ext (by show win0_4.index t (0 : Fin 3) * 1 + 1 * (u 0).val = win0_6.index t (0 : Fin 3); omega)
  | ⟨1, _⟩ => exact Fin.ext (by show win0_4.index t (1 : Fin 3) * 32 + 1 * (u 1).val = win0_6.index t (1 : Fin 3) * 32 + (u 1).val; omega)
  | ⟨2, _⟩ => exact Fin.ext (by show win0_4.index t (2 : Fin 3) * 32 + 1 * (u 2).val = (u 2).val; omega)

theorem in5 (t : Fin cfg0.N) (u : S1x32x32.Idx) :
    (((cfg0.win 5).blk t).view.emb u : S8x128x32.Idx) = ix3 (batchOf t) (row (groupOf t) (u 1)) (u 2) := by
  obtain ⟨e0, e1, e2⟩ := (grid_in t).2.2.2.2.2
  have hu0 : (u 0).val < 1 := (u 0).isLt
  funext a
  match a with
  | ⟨0, _⟩ => exact Fin.ext (by show win0_5.index t (0 : Fin 3) * 1 + 1 * (u 0).val = win0_6.index t (0 : Fin 3); omega)
  | ⟨1, _⟩ => exact Fin.ext (by show win0_5.index t (1 : Fin 3) * 32 + 1 * (u 1).val = win0_6.index t (1 : Fin 3) * 32 + (u 1).val; omega)
  | ⟨2, _⟩ => exact Fin.ext (by show win0_5.index t (2 : Fin 3) * 32 + 1 * (u 2).val = (u 2).val; omega)

/-- The first result's block at point t is rows 32·g … of batch b, all 32768 components. -/
theorem out6 (t : Fin cfg0.N) (j : S1x32x32768.Idx) :
    (((cfg0.win 6).blk t).view.emb j : S8x128x32768.Idx) = ix3 (batchOf t) (row (groupOf t) (j 1)) (j 2) := by
  obtain ⟨-, -, e2, -⟩ := grid_out t
  have hj0 : (j 0).val < 1 := (j 0).isLt
  funext a
  match a with
  | ⟨0, _⟩ => exact Fin.ext (by show win0_6.index t (0 : Fin 3) * 1 + 1 * (j 0).val = win0_6.index t (0 : Fin 3); omega)
  | ⟨1, _⟩ => exact Fin.ext (by show win0_6.index t (1 : Fin 3) * 32 + 1 * (j 1).val = win0_6.index t (1 : Fin 3) * 32 + (j 1).val; omega)
  | ⟨2, _⟩ => exact Fin.ext (by show win0_6.index t (2 : Fin 3) * 32768 + 1 * (j 2).val = (j 2).val; omega)

/-- The second result's block sits at the same place. -/
theorem out7 (t : Fin cfg0.N) (j : S1x32x32768.Idx) :
    (((cfg0.win 7).blk t).view.emb j : S8x128x32768.Idx) = ix3 (batchOf t) (row (groupOf t) (j 1)) (j 2) := by
  obtain ⟨-, -, -, e0, e1, e2⟩ := grid_out t
  have hj0 : (j 0).val < 1 := (j 0).isLt
  funext a
  match a with
  | ⟨0, _⟩ => exact Fin.ext (by show win0_7.index t (0 : Fin 3) * 1 + 1 * (j 0).val = win0_6.index t (0 : Fin 3); omega)
  | ⟨1, _⟩ => exact Fin.ext (by show win0_7.index t (1 : Fin 3) * 32 + 1 * (j 1).val = win0_6.index t (1 : Fin 3) * 32 + (j 1).val; omega)
  | ⟨2, _⟩ => exact Fin.ext (by show win0_7.index t (2 : Fin 3) * 32768 + 1 * (j 2).val = (j 2).val; omega)

/-! ## What each point writes back -/

/-- Point t writes back its block of the real parts of the product of the argument arrays. -/
theorem flushed_re (c : Dev nD) (t : Fin cfg0.N) :
    (dats m 0 c).flushed 6 t = ((cfg0.win 6).blk t).view.read (Elt Ideal) (outRe (V m c main_arg0) (V m c main_arg1) (V m c main_arg2) (V m c main_arg3) (V m c main_arg4) (V m c main_arg5)) := by
  rw [flushed6]
  funext j
  show out0_6 (iblk m c 0 t) (iblk m c 1 t) (iblk m c 2 t) (iblk m c 3 t) (iblk m c 4 t) (iblk m c 5 t) j = outRe (V m c main_arg0) (V m c main_arg1) (V m c main_arg2) (V m c main_arg3) (V m c main_arg4) (V m c main_arg5) (((cfg0.win 6).blk t).view.emb j)
  refine (left_re (iblk m c 0 t) (iblk m c 1 t) (iblk m c 2 t) (iblk m c 3 t) (iblk m c 4 t) (iblk m c 5 t) j).trans ?_
  refine (block_re (V m c main_arg0) (V m c main_arg1) (V m c main_arg2) (V m c main_arg3) (V m c main_arg4) (V m c main_arg5) (batchOf t) (groupOf t) (iblk m c 0 t) (iblk m c 1 t) (iblk m c 2 t) (iblk m c 3 t) (iblk m c 4 t) (iblk m c 5 t)
    (fun u => congrArg (V m c main_arg0) (in0 t u)) (fun u => congrArg (V m c main_arg1) (in1 t u))
    (fun u => congrArg (V m c main_arg2) (in2 t u)) (fun u => congrArg (V m c main_arg3) (in3 t u))
    (fun u => congrArg (V m c main_arg4) (in4 t u)) (fun u => congrArg (V m c main_arg5) (in5 t u)) j).trans ?_
  exact congrArg (outRe (V m c main_arg0) (V m c main_arg1) (V m c main_arg2) (V m c main_arg3) (V m c main_arg4) (V m c main_arg5)) (out6 t j).symm

/-- Point t writes back its block of the imaginary parts. -/
theorem flushed_im (c : Dev nD) (t : Fin cfg0.N) :
    (dats m 0 c).flushed 7 t = ((cfg0.win 7).blk t).view.read (Elt Ideal) (outIm (V m c main_arg0) (V m c main_arg1) (V m c main_arg2) (V m c main_arg3) (V m c main_arg4) (V m c main_arg5)) := by
  rw [flushed7]
  funext j
  show out0_7 (iblk m c 0 t) (iblk m c 1 t) (iblk m c 2 t) (iblk m c 3 t) (iblk m c 4 t) (iblk m c 5 t) j = outIm (V m c main_arg0) (V m c main_arg1) (V m c main_arg2) (V m c main_arg3) (V m c main_arg4) (V m c main_arg5) (((cfg0.win 7).blk t).view.emb j)
  refine (left_im (iblk m c 0 t) (iblk m c 1 t) (iblk m c 2 t) (iblk m c 3 t) (iblk m c 4 t) (iblk m c 5 t) j).trans ?_
  refine (block_im (V m c main_arg0) (V m c main_arg1) (V m c main_arg2) (V m c main_arg3) (V m c main_arg4) (V m c main_arg5) (batchOf t) (groupOf t) (iblk m c 0 t) (iblk m c 1 t) (iblk m c 2 t) (iblk m c 3 t) (iblk m c 4 t) (iblk m c 5 t)
    (fun u => congrArg (V m c main_arg0) (in0 t u)) (fun u => congrArg (V m c main_arg1) (in1 t u))
    (fun u => congrArg (V m c main_arg2) (in2 t u)) (fun u => congrArg (V m c main_arg3) (in3 t u))
    (fun u => congrArg (V m c main_arg4) (in4 t u)) (fun u => congrArg (V m c main_arg5) (in5 t u)) j).trans ?_
  exact congrArg (outIm (V m c main_arg0) (V m c main_arg1) (V m c main_arg2) (V m c main_arg3) (V m c main_arg4) (V m c main_arg5)) (out7 t j).symm

/-! ## Every entry is in some point's block -/

/-- An entry is in point t's block of the first result iff each coordinate is in the block's range on its axis. -/
theorem mem_block6 (t : Fin cfg0.N) (i : S8x128x32768.Idx) :
    i ∈ ((cfg0.win 6).blk t).view.set ↔ ∀ a : Fin 3, win0_6.index t a * S1x32x32768.size a ≤ (i a).val ∧ (i a).val < win0_6.index t a * S1x32x32768.size a + S1x32x32768.size a := by
  show i ∈ ((View.whole main_v0_0).slice (win0_6.rect t)).set ↔ _
  rw [View.set_slice_whole, Rect.mem_set_unit]
  exact Iff.rfl

/-- The same for the second result. -/
theorem mem_block7 (t : Fin cfg0.N) (i : S8x128x32768.Idx) :
    i ∈ ((cfg0.win 7).blk t).view.set ↔ ∀ a : Fin 3, win0_7.index t a * S1x32x32768.size a ≤ (i a).val ∧ (i a).val < win0_7.index t a * S1x32x32768.size a + S1x32x32768.size a := by
  show i ∈ ((View.whole main_v0_1).slice (win0_7.rect t)).set ↔ _
  rw [View.set_slice_whole, Rect.mem_set_unit]
  exact Iff.rfl

/-- Entry (b, s, d) of the first result lies in the block of the point (b, s / 32). -/
theorem cover_re (i : S8x128x32768.Idx) : ∃ t : Fin cfg0.N, (cfg0.win 6).flush t = true ∧ i ∈ ((cfg0.win 6).blk t).view.set := by
  have h0 : (i 0).val < 8 := (i 0).isLt
  have h1 : (i 1).val < 128 := (i 1).isLt
  have h2 : (i 2).val < 32768 := (i 2).isLt
  obtain ⟨t, ht, -⟩ := grid_onto ⟨(i 0).val, h0⟩ ⟨(i 1).val / 32, by omega⟩
  have q0 : win0_6.index t (0 : Fin 3) = (i 0).val := congrFun ht 0
  have q1 : win0_6.index t (1 : Fin 3) = (i 1).val / 32 := congrFun ht 1
  have q2 : win0_6.index t (2 : Fin 3) = 0 := congrFun ht 2
  refine ⟨t, flush0_6 t, ?_⟩
  rw [mem_block6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 32 ≤ (i 1).val ∧ (i 1).val < win0_6.index t (1 : Fin 3) * 32 + 32; omega
  | ⟨2, _⟩ => show win0_6.index t (2 : Fin 3) * 32768 ≤ (i 2).val ∧ (i 2).val < win0_6.index t (2 : Fin 3) * 32768 + 32768; omega

/-- Entry (b, s, d) of the second result lies in the block of the point (b, s / 32). -/
theorem cover_im (i : S8x128x32768.Idx) : ∃ t : Fin cfg0.N, (cfg0.win 7).flush t = true ∧ i ∈ ((cfg0.win 7).blk t).view.set := by
  have h0 : (i 0).val < 8 := (i 0).isLt
  have h1 : (i 1).val < 128 := (i 1).isLt
  have h2 : (i 2).val < 32768 := (i 2).isLt
  obtain ⟨t, -, ht⟩ := grid_onto ⟨(i 0).val, h0⟩ ⟨(i 1).val / 32, by omega⟩
  have q0 : win0_7.index t (0 : Fin 3) = (i 0).val := congrFun ht 0
  have q1 : win0_7.index t (1 : Fin 3) = (i 1).val / 32 := congrFun ht 1
  have q2 : win0_7.index t (2 : Fin 3) = 0 := congrFun ht 2
  refine ⟨t, flush0_7 t, ?_⟩
  rw [mem_block7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 32 ≤ (i 1).val ∧ (i 1).val < win0_7.index t (1 : Fin 3) * 32 + 32; omega
  | ⟨2, _⟩ => show win0_7.index t (2 : Fin 3) * 32768 ≤ (i 2).val ∧ (i 2).val < win0_7.index t (2 : Fin 3) * 32768 + 32768; omega

/-! ## The result arrays after the run -/

/-- The first result array ends as the real parts of the product of the argument arrays. -/
theorem final_re (c : Dev nD) : (dats m 0 c).arrAt 6 cfg0.N = outRe (V m c main_arg0) (V m c main_arg1) (V m c main_arg2) (V m c main_arg3) (V m c main_arg4) (V m c main_arg5) :=
  (dats m 0 c).arrAt_eq_of_cover 6 (outRe (V m c main_arg0) (V m c main_arg1) (V m c main_arg2) (V m c main_arg3) (V m c main_arg4) (V m c main_arg5)) (fun t _ => flushed_re m c t) cover_re

/-- The second result array ends as the imaginary parts. -/
theorem final_im (c : Dev nD) : (dats m 0 c).arrAt 7 cfg0.N = outIm (V m c main_arg0) (V m c main_arg1) (V m c main_arg2) (V m c main_arg3) (V m c main_arg4) (V m c main_arg5) :=
  (dats m 0 c).arrAt_eq_of_cover 7 (outIm (V m c main_arg0) (V m c main_arg1) (V m c main_arg2) (V m c main_arg3) (V m c main_arg4) (V m c main_arg5)) (fun t _ => flushed_im m c t) cover_im

/-- The kernel's run: it terminates without a fault, its two results are the real and imaginary parts of the Kronecker
    product of its arguments, and the arguments are as they were. -/
theorem run : θ_run defs (onTc (τ := τ) (main (F := Ideal))) ⟨m, fun _ => 0, ρ⟩ fun r => ∀ c : Dev nD,
      r.2.mem ((c : Thread nD τ).loc main_v0_0) = outRe (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = outIm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final_re m c), (h c).2.1.trans (final_im m c), (h c).2.2⟩)
    (run_blocks m ρ)

end Cert.QProduct.Ker

end
-- ==== Proof.QRefPair.lean ====
/-
  The reference program's first two stages, read at an entry.

  The reference starts its running product at the constant 1 + i (two arrays of ones) and multiplies the three
  factors in, one complex multiplication at a time, each followed by a flattening of the two component axes
  into one. Here: after the first factor an entry (b, s, p) holds (1 + i)·z₀(b, s, p), and after the second an
  entry (b, s, j) with j = 32·p + q holds (1 + i)·z₀(b, s, p)·z₁(b, s, q).

  Two small laws of the extended reals enter at the first stage only: 1·x = x, since the reference really
  multiplies by its array of ones, and x + y = y + x, since it adds the two cross terms in the other order.
  Neither needs the entries to be finite.
-/
import proofs.«148711_j54838142435818_1_alg».proof.Proof.Gen.ReferenceIdeal.Read
import proofs.«148711_j54838142435818_1_alg».proof.Proof.QSpec

noncomputable section

namespace Cert.QProduct.Ref

open Cert.ReferenceIdeal Cert.ReferenceIdeal.Read Idealize.ShloMosaic Idealize.ShloMosaic.ValueIdx Cert.QProduct

variable (a0 a1 a2 a3 : Arr)

/-! ## After the first factor -/

/-- Dropping the unit axis the broadcast added keeps the entry (b, s, p): its row-major position is
    (128·b + s)·32 + p in both shapes. -/
theorem at_first (b : Fin 8) (s : Fin 128) (p : Fin 32) :
    idx_main_v4 (idx_main_v21 (ix3 b s p)) = ix3 b s p := by
  have hb := b.isLt; have hs := s.isLt; have hp := p.isLt
  funext a
  match a with
  | ⟨0, _⟩ => exact Fin.ext (by show ((b.val * 128 + s.val) * 32 + p.val) / 4096 = b.val; omega)
  | ⟨1, _⟩ => exact Fin.ext (by show ((b.val * 128 + s.val) * 32 + p.val) / 32 % 128 = s.val; omega)
  | ⟨2, _⟩ => exact Fin.ext (by show ((b.val * 128 + s.val) * 32 + p.val) % 32 = p.val; omega)

/-- The real part after the first factor: 1·Re z₀ − 1·Im z₀ = Re z₀ − Im z₀. -/
theorem first_re (b : Fin 8) (s : Fin 128) (p : Fin 32) :
    val_main_v21 (F := Ideal) a0 a1 (ix3 b s p) = firstRe a0 a1 b s p := by
  have e0 : idx_main_v4 (idx_main_v21 (ix3 b s p)) = ix3 b s p := at_first b s p
  have e1 : idx_main_v8 (idx_main_v21 (ix3 b s p)) = ix3 b s p := at_first b s p
  simp only [val_main_v21_apply, val_main_v11_apply, val_main_v6_apply, val_main_v10_apply, val_main_v5_apply,
    val_main_v9_apply, val_main_v3_apply, val_main_v7_apply, val_main_v0_apply, val_main_v2_apply,
    val_main_cst_apply, val_main_cst_1_apply, val_main_v4_apply, val_main_v8_apply]
  rw [e0, e1]
  simp only [Ideal.subf_def, Ideal.mulf_def, Ideal.ofBits_def, one_word, one_mul]
  rfl

/-- The imaginary part after the first factor: 1·Im z₀ + 1·Re z₀ = Re z₀ + Im z₀. -/
theorem first_im (b : Fin 8) (s : Fin 128) (p : Fin 32) :
    val_main_v22 (F := Ideal) a0 a1 (ix3 b s p) = firstIm a0 a1 b s p := by
  have e0 : idx_main_v13 (idx_main_v22 (ix3 b s p)) = ix3 b s p := at_first b s p
  have e1 : idx_main_v17 (idx_main_v22 (ix3 b s p)) = ix3 b s p := at_first b s p
  simp only [val_main_v22_apply, val_main_v20_apply, val_main_v15_apply, val_main_v19_apply, val_main_v14_apply,
    val_main_v18_apply, val_main_v12_apply, val_main_v16_apply, val_main_v0_apply, val_main_v2_apply,
    val_main_cst_apply, val_main_cst_1_apply, val_main_v13_apply, val_main_v17_apply]
  rw [e0, e1]
  simp only [Ideal.addf_def, Ideal.mulf_def, Ideal.ofBits_def, one_word, one_mul]
  exact add_comm _ _

/-! ## After the second factor -/

/-- The leading digit p of j = 32·p + q. -/
def quot (j : Fin 1024) : Fin 32 := ⟨j.val / 32, by have := j.isLt; omega⟩
/-- The last digit q of j = 32·p + q. -/
def rem (j : Fin 1024) : Fin 32 := ⟨j.val % 32, by have := j.isLt; omega⟩

/-- Entry (b, s, j) of the flattened [8, 128, 1024] array came from entry (b, s, p, q) of the [8, 128, 32, 32] product,
    whose first operand was read at (b, s, p): -/
theorem at_pair_left (b : Fin 8) (s : Fin 128) (j : Fin 1024) :
    idx_main_v23 (idx_main_v25 (idx_main_v45 (ix3 b s j))) = ix3 b s (quot j) := by
  have hb := b.isLt; have hs := s.isLt; have hj := j.isLt
  funext a
  match a with
  | ⟨0, _⟩ => exact Fin.ext (by show ((b.val * 128 + s.val) * 1024 + j.val) / 131072 = b.val; omega)
  | ⟨1, _⟩ => exact Fin.ext (by show ((b.val * 128 + s.val) * 1024 + j.val) / 1024 % 128 = s.val; omega)
  | ⟨2, _⟩ => exact Fin.ext (by show ((b.val * 128 + s.val) * 1024 + j.val) / 32 % 32 = j.val / 32; omega)

/-- and whose second operand was read at (b, s, q). -/
theorem at_pair_right (b : Fin 8) (s : Fin 128) (j : Fin 1024) :
    idx_main_v24 (idx_main_v26 (idx_main_v45 (ix3 b s j))) = ix3 b s (rem j) := by
  have hb := b.isLt; have hs := s.isLt; have hj := j.isLt
  funext a
  match a with
  | ⟨0, _⟩ => exact Fin.ext (by show ((b.val * 128 + s.val) * 1024 + j.val) / 131072 = b.val; omega)
  | ⟨1, _⟩ => exact Fin.ext (by show ((b.val * 128 + s.val) * 1024 + j.val) / 1024 % 128 = s.val; omega)
  | ⟨2, _⟩ => exact Fin.ext (by show ((b.val * 128 + s.val) * 1024 + j.val) % 32 = j.val % 32; omega)

/-- The real part after the second factor. -/
theorem pair_re (b : Fin 8) (s : Fin 128) (j : Fin 1024) :
    val_main_v45 (F := Ideal) a0 a1 a2 a3 (ix3 b s j) = pairRe a0 a1 a2 a3 b s (quot j) (rem j) := by
  have e0 : idx_main_v23 (idx_main_v25 (idx_main_v45 (ix3 b s j))) = ix3 b s (quot j) := at_pair_left b s j
  have e1 : idx_main_v24 (idx_main_v26 (idx_main_v45 (ix3 b s j))) = ix3 b s (rem j) := at_pair_right b s j
  have e2 : idx_main_v28 (idx_main_v30 (idx_main_v45 (ix3 b s j))) = ix3 b s (quot j) := at_pair_left b s j
  have e3 : idx_main_v29 (idx_main_v31 (idx_main_v45 (ix3 b s j))) = ix3 b s (rem j) := at_pair_right b s j
  simp only [val_main_v45_apply, val_main_v33_apply, val_main_v27_apply, val_main_v32_apply, val_main_v25_apply,
    val_main_v26_apply, val_main_v30_apply, val_main_v31_apply, val_main_v23_apply, val_main_v24_apply,
    val_main_v28_apply, val_main_v29_apply]
  rw [e0, e1, e2, e3, first_re, first_im]
  rfl

/-- The imaginary part after the second factor. -/
theorem pair_im (b : Fin 8) (s : Fin 128) (j : Fin 1024) :
    val_main_v46 (F := Ideal) a0 a1 a2 a3 (ix3 b s j) = pairIm a0 a1 a2 a3 b s (quot j) (rem j) := by
  have e0 : idx_main_v34 (idx_main_v36 (idx_main_v46 (ix3 b s j))) = ix3 b s (quot j) := at_pair_left b s j
  have e1 : idx_main_v35 (idx_main_v37 (idx_main_v46 (ix3 b s j))) = ix3 b s (rem j) := at_pair_right b s j
  have e2 : idx_main_v39 (idx_main_v41 (idx_main_v46 (ix3 b s j))) = ix3 b s (quot j) := at_pair_left b s j
  have e3 : idx_main_v40 (idx_main_v42 (idx_main_v46 (ix3 b s j))) = ix3 b s (rem j) := at_pair_right b s j
  simp only [val_main_v46_apply, val_main_v44_apply, val_main_v38_apply, val_main_v43_apply, val_main_v36_apply,
    val_main_v37_apply, val_main_v41_apply, val_main_v42_apply, val_main_v34_apply, val_main_v35_apply,
    val_main_v39_apply, val_main_v40_apply]
  rw [e0, e1, e2, e3, first_re, first_im]
  rfl

end Cert.QProduct.Ref

end
-- ==== Proof.QRefTriple.lean ====
/-
  The reference program's last stage, and its two results as whole arrays.

  The third complex multiplication pairs entry (b, s, j) of the two-factor product, j = 32·p + q, with component k of
  the third factor, and the final flattening puts the result at d = 32·j + k = 1024·p + 32·q + k. So the digits of d
  found in two steps (first d = 32·j + k, then j = 32·p + q) are the three base-32 digits of d, and the reference's
  two results are the real and imaginary parts of (1 + i)·z₀(p)·z₁(q)·z₂(k).
-/
import proofs.«148711_j54838142435818_1_alg».proof.Proof.QRefPair

noncomputable section

namespace Cert.QProduct.Ref

open Cert.ReferenceIdeal Cert.ReferenceIdeal.Read Idealize.ShloMosaic Idealize.ShloMosaic.ValueIdx Cert.QProduct

variable (a0 a1 a2 a3 a4 a5 : Arr)

/-- The leading two digits of d, as one number j = d / 32 < 1024. -/
def front (d : Fin 32768) : Fin 1024 := ⟨d.val / 32, by have := d.isLt; omega⟩

/-- Dividing by 32 twice is dividing by 1024: the leading digit. -/
theorem quot_front (d : Fin 32768) : quot (front d) = hi d :=
  Fin.ext (by show d.val / 32 / 32 = d.val / 1024; omega)

/-- The middle digit is the remainder of the leading two. -/
theorem rem_front (d : Fin 32768) : rem (front d) = mid d := rfl

/-- Entry (b, s, d) of a flattened [8, 128, 32768] result came from entry (b, s, j, k) of the [8, 128, 1024, 32] product,
    whose first operand was read at (b, s, j): -/
theorem at_triple_left (b : Fin 8) (s : Fin 128) (d : Fin 32768) :
    idx_main_v47 (idx_main_v49 (idx_main_v69 (ix3 b s d))) = ix3 b s (front d) := by
  have hb := b.isLt; have hs := s.isLt; have hd := d.isLt
  funext a
  match a with
  | ⟨0, _⟩ => exact Fin.ext (by show ((b.val * 128 + s.val) * 32768 + d.val) / 4194304 = b.val; omega)
  | ⟨1, _⟩ => exact Fin.ext (by show ((b.val * 128 + s.val) * 32768 + d.val) / 32768 % 128 = s.val; omega)
  | ⟨2, _⟩ => exact Fin.ext (by show ((b.val * 128 + s.val) * 32768 + d.val) / 32 % 1024 = d.val / 32; omega)

/-- and whose second operand was read at (b, s, k). -/
theorem at_triple_right (b : Fin 8) (s : Fin 128) (d : Fin 32768) :
    idx_main_v48 (idx_main_v50 (idx_main_v69 (ix3 b s d))) = ix3 b s (lo d) := by
  have hb := b.isLt; have hs := s.isLt; have hd := d.isLt
  funext a
  match a with
  | ⟨0, _⟩ => exact Fin.ext (by show ((b.val * 128 + s.val) * 32768 + d.val) / 4194304 = b.val; omega)
  | ⟨1, _⟩ => exact Fin.ext (by show ((b.val * 128 + s.val) * 32768 + d.val) / 32768 % 128 = s.val; omega)
  | ⟨2, _⟩ => exact Fin.ext (by show ((b.val * 128 + s.val) * 32768 + d.val) % 32 = d.val % 32; omega)

/-- The real part after the third factor, at the digits of d. -/
theorem triple_re (b : Fin 8) (s : Fin 128) (d : Fin 32768) :
    val_main_v69 (F := Ideal) a0 a1 a2 a3 a4 a5 (ix3 b s d) = tripleRe a0 a1 a2 a3 a4 a5 b s (hi d) (mid d) (lo d) := by
  have e0 : idx_main_v47 (idx_main_v49 (idx_main_v69 (ix3 b s d))) = ix3 b s (front d) := at_triple_left b s d
  have e1 : idx_main_v48 (idx_main_v50 (idx_main_v69 (ix3 b s d))) = ix3 b s (lo d) := at_triple_right b s d
  have e2 : idx_main_v52 (idx_main_v54 (idx_main_v69 (ix3 b s d))) = ix3 b s (front d) := at_triple_left b s d
  have e3 : idx_main_v53 (idx_main_v55 (idx_main_v69 (ix3 b s d))) = ix3 b s (lo d) := at_triple_right b s d
  simp only [val_main_v69_apply, val_main_v57_apply, val_main_v51_apply, val_main_v56_apply, val_main_v49_apply,
    val_main_v50_apply, val_main_v54_apply, val_main_v55_apply, val_main_v47_apply, val_main_v48_apply,
    val_main_v52_apply, val_main_v53_apply]
  rw [e0, e1, e2, e3, pair_re, pair_im, quot_front, rem_front]
  rfl

/-- The imaginary part after the third factor, at the digits of d. -/
theorem triple_im (b : Fin 8) (s : Fin 128) (d : Fin 32768) :
    val_main_v70 (F := Ideal) a0 a1 a2 a3 a4 a5 (ix3 b s d) = tripleIm a0 a1 a2 a3 a4 a5 b s (hi d) (mid d) (lo d) := by
  have e0 : idx_main_v58 (idx_main_v60 (idx_main_v70 (ix3 b s d))) = ix3 b s (front d) := at_triple_left b s d
  have e1 : idx_main_v59 (idx_main_v61 (idx_main_v70 (ix3 b s d))) = ix3 b s (lo d) := at_triple_right b s d
  have e2 : idx_main_v63 (idx_main_v65 (idx_main_v70 (ix3 b s d))) = ix3 b s (front d) := at_triple_left b s d
  have e3 : idx_main_v64 (idx_main_v66 (idx_main_v70 (ix3 b s d))) = ix3 b s (lo d) := at_triple_right b s d
  simp only [val_main_v70_apply, val_main_v68_apply, val_main_v62_apply, val_main_v67_apply, val_main_v60_apply,
    val_main_v61_apply, val_main_v65_apply, val_main_v66_apply, val_main_v58_apply, val_main_v59_apply,
    val_main_v63_apply, val_main_v64_apply]
  rw [e0, e1, e2, e3, pair_re, pair_im, quot_front, rem_front]
  rfl

/-! ## The two results, whole -/

/-- The reference's first result is the array of real parts. -/
theorem result_re : val_main_v69 (F := Ideal) a0 a1 a2 a3 a4 a5 = outRe a0 a1 a2 a3 a4 a5 := by
  funext i
  rw [eq_ix3 i]
  exact triple_re a0 a1 a2 a3 a4 a5 (i 0) (i 1) (i 2)

/-- The reference's second result is the array of imaginary parts. -/
theorem result_im : val_main_v70 (F := Ideal) a0 a1 a2 a3 a4 a5 = outIm a0 a1 a2 a3 a4 a5 := by
  funext i
  rw [eq_ix3 i]
  exact triple_im a0 a1 a2 a3 a4 a5 (i 0) (i 1) (i 2)

end Cert.QProduct.Ref

end
-- ==== Proof.lean ====
/-
  The kernel and the reference compute the same two arrays.

  Both take the real and imaginary parts of three complex tensors z₀, z₁, z₂ of shape [8, 128, 32] and return the real
  and imaginary parts of the [8, 128, 32768] tensor

      w(b, s, 1024·p + 32·q + k) = (1 + i) · z₀(b, s, p) · z₁(b, s, q) · z₂(b, s, k),

  the Kronecker product of the three component vectors at each batch and position, times 1 + i. Both form it the same
  way: the running product starts at 1 + i, each factor is multiplied in by the four real products of one complex
  multiplication, and the two component axes are flattened after each step. They differ in two places only. The kernel
  folds the start into the first step, Re = Re z₀ − Im z₀ and Im = Re z₀ + Im z₀, where the reference multiplies by
  arrays of ones and adds the cross terms in the other order; on the extended reals 1·x = x and x + y = y + x hold for
  every x and y, so the two agree whether or not the inputs are finite. And the kernel works on 32 blocks of 32 rows
  where the reference works on whole arrays; every row lies in exactly one block.

  Proof/QSpec.lean states the common value; Proof/QRefPair.lean and Proof/QRefTriple.lean show that the reference's
  results are that value, Proof/QKernelBlock.lean and Proof/QKernelArray.lean that the kernel's are. The three
  programs' termination and the preservation of their arguments come from their runs. The idealized kernel is the
  kernel's own text read over the extended reals: nothing was rewritten, so there is nothing to preserve.
-/
import proofs.«148711_j54838142435818_1_alg».proof.Defs
import proofs.«148711_j54838142435818_1_alg».proof.Proof.Gen.Kernel
import proofs.«148711_j54838142435818_1_alg».proof.Proof.Gen.Kernel.Skeleton
import proofs.«148711_j54838142435818_1_alg».proof.Proof.Gen.Kernel.Launch
import proofs.«148711_j54838142435818_1_alg».proof.Proof.Gen.Kernel.Points
import proofs.«148711_j54838142435818_1_alg».proof.Proof.Gen.Kernel.Frame
import proofs.«148711_j54838142435818_1_alg».proof.Proof.Gen.KernelIdeal
import proofs.«148711_j54838142435818_1_alg».proof.Proof.Gen.KernelIdeal.Skeleton
import proofs.«148711_j54838142435818_1_alg».proof.Proof.Gen.KernelIdeal.Launch
import proofs.«148711_j54838142435818_1_alg».proof.Proof.Gen.KernelIdeal.Points
import proofs.«148711_j54838142435818_1_alg».proof.Proof.Gen.KernelIdeal.Frame
import proofs.«148711_j54838142435818_1_alg».proof.Proof.Gen.ReferenceIdeal
import proofs.«148711_j54838142435818_1_alg».proof.Proof.Gen.Pre_finite_inputs
import proofs.«148711_j54838142435818_1_alg».proof.Proof.Gen.KernelIdeal.Value
import proofs.«148711_j54838142435818_1_alg».proof.Proof.Gen.ReferenceIdeal.Run
import proofs.«148711_j54838142435818_1_alg».proof.Proof.Gen.ReferenceIdeal.Read
import proofs.«148711_j54838142435818_1_alg».proof.Proof.QKernelArray
import proofs.«148711_j54838142435818_1_alg».proof.Proof.QRefTriple
import Idealize.ShloMosaic.Adequacy
import Idealize.ShloMosaic.Init

noncomputable section

namespace Cert.Proof

open Idealize.ShloMosaic Idealize.SL.Sem Cert.QProduct

/-- The kernel, word for word: it runs to the end and leaves its arguments alone. -/
theorem frame_kernel : Cert.frame_Kernel := fun m ρ _ => Cert.Kernel.Gen.frame m ρ

/-- The kernel over the extended reals: the same. -/
theorem frame_kernel_ideal : Cert.frame_KernelIdeal := fun m ρ _ => Cert.KernelIdeal.Gen.frame m ρ

/-- The reference over the extended reals: its run, with what it says of the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- No operation of the kernel was rewritten when it was read over the extended reals. -/
theorem preserves : Cert.preserves_Kernel_KernelIdeal := trivial

/-- From memories that agree on the six arguments, the kernel's two results and the reference's two results are the
    real and the imaginary parts of the one Kronecker product. -/
theorem algebraic : Cert.algebraic_KernelIdeal_ReferenceIdeal := by
  intro m ρ m' ρ' _ hagree
  refine ⟨_, _, Ker.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v69_eq, Ref.result_re, (hagree c).1, (hagree c).2.1, (hagree c).2.2.1,
      (hagree c).2.2.2.1, (hagree c).2.2.2.2.1, (hagree c).2.2.2.2.2]
  · rw [Cert.ReferenceIdeal.Read.val_main_v70_eq, Ref.result_im, (hagree c).1, (hagree c).2.1, (hagree c).2.2.1,
      (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
